-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x512 .f32) (main_arg8 : FVec F S256 .f32) (main_arg9 : FVec F S256x512 .f32) (main_arg10 : FVec F S256 .f32) (main_arg11 : FVec F S256x512 .f32) (main_arg12 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S131072x64 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S256x512 .f32) (main_arg12 : FVec F S256 .f32) (main_v13 : IVec S_ 1) (main_v16 : IVec S131072x64 1) : IVec S_ 1 :=
  let main_c_5 : IVec S_ 1 := constantI S_ 1 1#1
  let main_v17 : IVec S_ 1 := (fun x v => Host.reduce IntOp.andi x v reducesTo_S131072x64_S_d0_1 h_S_) main_v16 main_c_5
  let main_v18 : IVec S_ 1 := andi main_v13 main_v17
  let main_v19 : FVec F S131072x64 .f32 := Host.absf main_arg4
  let main_cst_6 : FVec F S_ .f32 := constant S_ .f32 0x7F800000#32
  let main_v20 : FVec F S131072x64 .f32 := broadcastInDim S131072x64 ![] bcast_S_S131072x64 main_cst_6
  let main_v21 : IVec S131072x64 1 := cmpf .olt main_v19 main_v20
  let main_c_7 : IVec S_ 1 := constantI S_ 1 1#1
  let main_v22 : IVec S_ 1 := (fun x v => Host.reduce IntOp.andi x v reducesTo_S131072x64_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x256 .f32) (main_arg1 : FVec F S131072x256 .f32) (main_arg2 : FVec F S131072x256 .f32) (main_arg3 : FVec F S131072x64 .f32) (main_arg4 : FVec F S131072x64 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S256x512 .f32) (main_arg12 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x64 .f32 := Host.absf main_arg3
  let main_cst_4 : FVec F S_ .f32 := constant S_ .f32 0x7F800000#32
  let main_v15 : FVec F S131072x64 .f32 := broadcastInDim S131072x64 ![] bcast_S_S131072x64 main_cst_4
  let main_v16 : IVec S131072x64 1 := cmpf .olt main_v14 main_v15
  fn_part1 (F := F) main_arg4 main_arg5 main_arg6 main_arg7 main_arg8 main_arg9 main_arg10 main_arg11 main_arg12 main_v13 main_v16
-- ==== Kernel.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S1024x512 : Shape := ⟨2, ![1024, 512]⟩
abbrev S512x1024 : Shape := ⟨2, ![512, 1024]⟩
abbrev S1024 : Shape := ⟨1, ![1024]⟩
abbrev S1x1024 : Shape := ⟨2, ![1, 1024]⟩
abbrev S1024x256 : Shape := ⟨2, ![1024, 256]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x64, .f32⟩
  | .hbm, ⟨4, _⟩ => ⟨S131072x64, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024, .f32⟩
  | .hbm, ⟨17, _⟩ => ⟨S1x1024, .f32⟩
  | .hbm, ⟨18, _⟩ => ⟨S131072x256, .f32⟩
  | .hbm, ⟨19, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S512x1024, .bf16⟩
  | .local _ .vmem, ⟨7, _⟩ => ⟨S1x1024, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x512_S256x512_S256x512_S256x512_S1024x512_d0 : Shape.Concatenates [S256x512, S256x512, S256x512, S256x512] S1024x512 0
  transposes_S1024x512_S512x1024_1_0 : S1024x512.Transposes [1, 0] S512x1024
  bitsLt_bf16_f32 : FTy.bits .bf16 < FTy.bits .f32
  concatenates_S256_S256_S256_S256_S1024_d0 : Shape.Concatenates [S256, S256, S256, S256] S1024 0
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  concatenates_S1024x256_S1024x256_S1024x512_d1 : Shape.Concatenates [S1024x256, S1024x256] S1024x512 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S131072x256.size a
  hwx0_5 : ∀ i : grid0.Coords, EltTy.bits .f32 = 32 ∨ (Rect.block (s := S131072x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S131072x256.size a
  hwx0_6 : ∀ i : grid0.Coords, EltTy.bits .f32 = 32 ∨ (Rect.block (s := S131072x256) S1024x256.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x64 : Shape := ⟨2, ![131072, 64]⟩
abbrev S256x512 : Shape := ⟨2, ![256, 512]⟩
abbrev S256 : Shape := ⟨1, ![256]⟩
abbrev S131072x512 : Shape := ⟨2, ![131072, 512]⟩
abbrev S1024x512 : Shape := ⟨2, ![1024, 512]⟩
abbrev S1024 : Shape := ⟨1, ![1024]⟩
abbrev S512x1024 : Shape := ⟨2, ![512, 1024]⟩
abbrev S131072x1024 : Shape := ⟨2, ![131072, 1024]⟩
abbrev S1x1024 : Shape := ⟨2, ![1, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x64, .f32⟩
  | .hbm, ⟨4, _⟩ => ⟨S131072x64, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S256x512, .f32⟩
  | .hbm, ⟨12, _⟩ => ⟨S256, .f32⟩
  | .hbm, ⟨13, _⟩ => ⟨S131072x512, .f32⟩
  | .hbm, ⟨14, _⟩ => ⟨S1024x512, .f32⟩
  | .hbm, ⟨15, _⟩ => ⟨S1024, .f32⟩
  | .hbm, ⟨16, _⟩ => ⟨S512x1024, .f32⟩
  | .hbm, ⟨17, _⟩ => ⟨S131072x1024, .f32⟩
  | .hbm, ⟨18, _⟩ => ⟨S1x1024, .f32⟩
  | .hbm, ⟨19, _⟩ => ⟨S131072x1024, .f32⟩
  | .hbm, ⟨20, _⟩ => ⟨S131072x1024, .f32⟩
  | .hbm, ⟨21, _⟩ => ⟨S131072x256, .f32⟩
  | .hbm, ⟨22, _⟩ => ⟨S131072x256, .f32⟩
  | .hbm, ⟨23, _⟩ => ⟨S131072x256, .f32⟩
  | .hbm, ⟨24, _⟩ => ⟨S131072x256, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S_, .f32⟩
  | .hbm, ⟨44, _⟩ => ⟨S131072x256, .f32⟩
  | .hbm, ⟨45, _⟩ => ⟨S131072x256, .f32⟩
  | .hbm, ⟨46, _⟩ => ⟨S_, .f32⟩
  | .hbm, ⟨47, _⟩ => ⟨S131072x256, .f32⟩
  | .hbm, ⟨48, _⟩ => ⟨S131072x256, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  concatenates_S131072x256_S131072x256_S131072x512_d1 : Shape.Concatenates [S131072x256, S131072x256] S131072x512 1
  concatenates_S256x512_S256x512_S256x512_S256x512_S1024x512_d0 : Shape.Concatenates [S256x512, S256x512, S256x512, S256x512] S1024x512 0
  concatenates_S256_S256_S256_S256_S1024_d0 : Shape.Concatenates [S256, S256, S256, S256] S1024 0
  transposes_S1024x512_S512x1024_1_0 : S1024x512.Transposes [1, 0] S512x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  dot_S131072x512_S512x1024_S131072x1024_1_0_0_1_n_n_wf : DotDims.WF S131072x512 S512x1024 S131072x1024 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf

class Facts : Prop extends Facts₀ where

variable [Facts]
-- ==== Proof.CellFrameBits.lean ====
/-
  The LSTM cell's program runs, faults nowhere and leaves its thirteen argument arrays as they were.

  Before its one launch the program builds two arrays on the device: the four gate weight matrices stacked
  along the rows, transposed and narrowed (a [512, 1024] matrix), and the four gate biases laid end to end as one
  row [1, 1024]. None of these five operations writes an argument array, so at the launch every argument still holds
  what the program was started with (`atEntry_arg…`).
  The launch walks 128 row blocks of 1024 rows. At each block the body reads the block of `x`, of `h` and of `c`,
  the whole weight matrix and the bias row, and overwrites the block of each of the two results: the new hidden state
  `out` with the skeleton's third payload and the new cell state with its second. What each result's staging buffer
  holds after the body is therefore one covering store over the five things read (`hiddenBlock`, `cellBlock`).
  From that body triple the pipeline library gives the run (`run_main`): every array of the launch ends at what the
  library computes from the blocks written back, every other buffer as the launch found it. The three staged
  arguments are inputs of the launch, the other ten are not touched by it: the frame (`frame`).
-/
import proofs.«133122_j28913719836975_1_alg».proof.Proof.Gen.Kernel.Launch
import proofs.«133122_j28913719836975_1_alg».proof.Proof.Gen.Kernel.Skeleton
import proofs.«133122_j28913719836975_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its launch -/

/-- What core `c`'s buffers hold when the launch is entered: the started memory after the five operations that
    stack, transpose and narrow the weights and lay out the bias row. -/
abbrev atEntry (c : Dev nD) (b : Ref sig .tc) : Buf (Elt F) ((c : Thread nD τ).loc b) :=
  StableHlo.after hostOps0 (fun b => m (c, b)) b

/-- None of the five operations leaves a buffer at contents nobody chose. -/
theorem hostOps0_fresh : (hostOps0 : List (HloOp τ sig (Elt F))).Forall fun op => op.fresh = ∅ := by
  simp only [List.Forall]; repeat' constructor

/-- The program is those five operations, then the launch. -/
theorem main_to_launch (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No operation before the launch writes argument 0. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 1. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 2. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 3. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 4. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 5. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 6. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 7. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 8. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 9. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 10. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 11. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 12. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The blocks the launch stages -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (the weights and the
    bias row are fetched once: their block index never moves), for any proof data over the entry contents whose body
    leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (the weights and the
    bias row are fetched once: their block index never moves), for any proof data over the entry contents whose body
    leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (the weights and the
    bias row are fetched once: their block index never moves), for any proof data over the entry contents whose body
    leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (the weights and the
    bias row are fetched once: their block index never moves), for any proof data over the entry contents whose body
    leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (the weights and the
    bias row are fetched once: their block index never moves), for any proof data over the entry contents whose body
    leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the launch -/

/-- For any proof data over the entry contents, a run that ends with every array of the launch at what the library
    computes from the data and every other buffer as the launch found it leaves the thirteen arguments unchanged:
    `x`, `h` and `c` are inputs of the launch, the placeholders, the weights and the biases bypass it. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).2 main_arg11 (Pipeline.mem_restRefs_of main_arg11 (by decide) (by decide))).trans (atEntry_arg11 m c),
      ((h c).2 main_arg12 (Pipeline.mem_restRefs_of main_arg12 (by decide) (by decide))).trans (atEntry_arg12 m c)⟩) h

/-! ## What the body reads and writes -/

/-- A whole row block [1024, 256], the whole weight matrix [512, 1024], the whole bias row [1, 1024]. -/
abbrev rRows : Rect S1024x256 := Rect.unit (s := S1024x256) ![0, 0] S1024x256.size inb_S1024x256_S1024x256_0_0
abbrev rWeights : Rect S512x1024 := Rect.unit (s := S512x1024) ![0, 0] S512x1024.size inb_S512x1024_S512x1024_0_0
abbrev rBias : Rect S1x1024 := Rect.unit (s := S1x1024) ![0, 0] S1x1024.size inb_S1x1024_S1x1024_0_0

/-- The new hidden state's staging buffer after the body: one store over the whole block, of the third payload at
    the blocks of `x`, `h`, the weights, the bias row and `c`. -/
def hiddenBlock (x h cs : Vec F S1024x256 .f32) (w : Vec F S512x1024 .bf16) (b : Vec F S1x1024 .f32) : Vec F S1024x256 .f32 :=
  View.canon [⟨rRows, k0_pay3 (View.ld x rRows) (View.ld h rRows) (View.ld w rWeights) (View.ld b rBias) (View.ld cs rRows)⟩]

/-- The new cell state's staging buffer after the body: one store over the whole block, of the second payload. -/
def cellBlock (x h cs : Vec F S1024x256 .f32) (w : Vec F S512x1024 .bf16) (b : Vec F S1x1024 .f32) : Vec F S1024x256 .f32 :=
  View.canon [⟨rRows, k0_pay2 (View.ld x rRows) (View.ld h rRows) (View.ld w rWeights) (View.ld b rBias) (View.ld cs rRows)⟩]

/-- One store through the whole-block rectangle covers the block. -/
theorem rows_cover (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's triple -/

set_option maxHeartbeats 1000000 in
/-- The body on whole staging buffers, the five inputs' at the contents read and the two results' at anything, runs to a
    state with the inputs as they were and the results at `hiddenBlock` and `cellBlock` of the inputs. (It loads each
    result's buffer before storing over it; what it finds there is not used.) -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x256 .f32) (harg6 : arg6.IsWhole)
    (arg7 : Memref sig .tc .vmem S1024x256 .f32) (harg7 : arg7.IsWhole)
    (x h cs : Vec F S1024x256 .f32) (w : Vec F S512x1024 .bf16) (b : Vec F S1x1024 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cs
            ∗ owns (c : Thread nD τ) arg4 fullShare w ∗ owns (c : Thread nD τ) arg5 fullShare b
            ∗ owns (c : Thread nD τ) arg6 fullShare (hiddenBlock x h cs w b) ∗ owns (c : Thread nD τ) arg7 fullShare (cellBlock x h cs w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_cover _)
  iexists _; isplitr
  swap; · iexact H6
  ipureintro
  exact View.read_writes_eq_canon _ _ _ (rows_cover _)

/-! ## The launch's proof data -/

/-- On core `c`: the arrays as the launch finds them; after the body at point `t` each input's buffer at its block and
    each result's at its block of the new state; the invariant the scoped rest and the generator register, untouched;
    nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: each input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the launch at what
    the library computes from the proof data and every other unscoped buffer as the launch found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_launch m Variants.none) (hA := A_eq m) (hΦ := fun _ _ => rfl)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Cell

end
-- ==== Proof.CellFrameIdeal.lean ====
/-
  The LSTM cell's program runs, faults nowhere and leaves its thirteen argument arrays as they were.

  Before its one launch the program builds two arrays on the device: the four gate weight matrices stacked
  along the rows, transposed and narrowed (a [512, 1024] matrix), and the four gate biases laid end to end as one
  row [1, 1024]. None of these five operations writes an argument array, so at the launch every argument still holds
  what the program was started with (`atEntry_arg…`).
  The launch walks 128 row blocks of 1024 rows. At each block the body reads the block of `x`, of `h` and of `c`,
  the whole weight matrix and the bias row, and overwrites the block of each of the two results: the new hidden state
  `out` with the skeleton's third payload and the new cell state with its second. What each result's staging buffer
  holds after the body is therefore one covering store over the five things read (`hiddenBlock`, `cellBlock`).
  From that body triple the pipeline library gives the run (`run_main`): every array of the launch ends at what the
  library computes from the blocks written back, every other buffer as the launch found it. The three staged
  arguments are inputs of the launch, the other ten are not touched by it: the frame (`frame`).
-/
import proofs.«133122_j28913719836975_1_alg».proof.Proof.Gen.KernelIdeal.Launch
import proofs.«133122_j28913719836975_1_alg».proof.Proof.Gen.KernelIdeal.Skeleton
import proofs.«133122_j28913719836975_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its launch -/

/-- What core `c`'s buffers hold when the launch is entered: the started memory after the five operations that
    stack, transpose and narrow the weights and lay out the bias row. -/
abbrev atEntry (c : Dev nD) (b : Ref sig .tc) : Buf (Elt F) ((c : Thread nD τ).loc b) :=
  StableHlo.after hostOps0 (fun b => m (c, b)) b

/-- None of the five operations leaves a buffer at contents nobody chose. -/
theorem hostOps0_fresh : (hostOps0 : List (HloOp τ sig (Elt F))).Forall fun op => op.fresh = ∅ := by
  simp only [List.Forall]; repeat' constructor

/-- The program is those five operations, then the launch. -/
theorem main_to_launch (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- No operation before the launch writes argument 0. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 1. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 2. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 3. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 4. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 5. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 6. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 7. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 8. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 9. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 10. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 11. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No operation before the launch writes argument 12. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The blocks the launch stages -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (the weights and the
    bias row are fetched once: their block index never moves), for any proof data over the entry contents whose body
    leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (the weights and the
    bias row are fetched once: their block index never moves), for any proof data over the entry contents whose body
    leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (the weights and the
    bias row are fetched once: their block index never moves), for any proof data over the entry contents whose body
    leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (the weights and the
    bias row are fetched once: their block index never moves), for any proof data over the entry contents whose body
    leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (the weights and the
    bias row are fetched once: their block index never moves), for any proof data over the entry contents whose body
    leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the launch -/

/-- For any proof data over the entry contents, a run that ends with every array of the launch at what the library
    computes from the data and every other buffer as the launch found it leaves the thirteen arguments unchanged:
    `x`, `h` and `c` are inputs of the launch, the placeholders, the weights and the biases bypass it. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (atEntry_arg0 m c))),
      ((h c).1 1).trans (((dats 0 c).arrAt_in 1 rfl _).trans ((hA c 1).trans (atEntry_arg1 m c))),
      ((h c).1 2).trans (((dats 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).2 main_arg11 (Pipeline.mem_restRefs_of main_arg11 (by decide) (by decide))).trans (atEntry_arg11 m c),
      ((h c).2 main_arg12 (Pipeline.mem_restRefs_of main_arg12 (by decide) (by decide))).trans (atEntry_arg12 m c)⟩) h

/-! ## What the body reads and writes -/

/-- A whole row block [1024, 256], the whole weight matrix [512, 1024], the whole bias row [1, 1024]. -/
abbrev rRows : Rect S1024x256 := Rect.unit (s := S1024x256) ![0, 0] S1024x256.size inb_S1024x256_S1024x256_0_0
abbrev rWeights : Rect S512x1024 := Rect.unit (s := S512x1024) ![0, 0] S512x1024.size inb_S512x1024_S512x1024_0_0
abbrev rBias : Rect S1x1024 := Rect.unit (s := S1x1024) ![0, 0] S1x1024.size inb_S1x1024_S1x1024_0_0

/-- The new hidden state's staging buffer after the body: one store over the whole block, of the third payload at
    the blocks of `x`, `h`, the weights, the bias row and `c`. -/
def hiddenBlock (x h cs : Vec F S1024x256 .f32) (w : Vec F S512x1024 .bf16) (b : Vec F S1x1024 .f32) : Vec F S1024x256 .f32 :=
  View.canon [⟨rRows, k0_pay3 (View.ld x rRows) (View.ld h rRows) (View.ld w rWeights) (View.ld b rBias) (View.ld cs rRows)⟩]

/-- The new cell state's staging buffer after the body: one store over the whole block, of the second payload. -/
def cellBlock (x h cs : Vec F S1024x256 .f32) (w : Vec F S512x1024 .bf16) (b : Vec F S1x1024 .f32) : Vec F S1024x256 .f32 :=
  View.canon [⟨rRows, k0_pay2 (View.ld x rRows) (View.ld h rRows) (View.ld w rWeights) (View.ld b rBias) (View.ld cs rRows)⟩]

/-- One store through the whole-block rectangle covers the block. -/
theorem rows_cover (p0 : Vec F S1024x256 .f32) (y : S1024x256.Idx) :
    ∃ pc ∈ ([⟨rRows, p0⟩] : List (View.Piece (Elt F) S1024x256 .f32)), y ∈ pc.1.set :=
  View.cover_of_tiled [⟨rRows, p0⟩] S1024x256.size (by rfl) y

/-! ## The body's triple -/

set_option maxHeartbeats 1000000 in
/-- The body on whole staging buffers, the five inputs' at the contents read and the two results' at anything, runs to a
    state with the inputs as they were and the results at `hiddenBlock` and `cellBlock` of the inputs. (It loads each
    result's buffer before storing over it; what it finds there is not used.) -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x256 .f32) (harg6 : arg6.IsWhole)
    (arg7 : Memref sig .tc .vmem S1024x256 .f32) (harg7 : arg7.IsWhole)
    (x h cs : Vec F S1024x256 .f32) (w : Vec F S512x1024 .bf16) (b : Vec F S1x1024 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cs
            ∗ owns (c : Thread nD τ) arg4 fullShare w ∗ owns (c : Thread nD τ) arg5 fullShare b
            ∗ owns (c : Thread nD τ) arg6 fullShare (hiddenBlock x h cs w b) ∗ owns (c : Thread nD τ) arg7 fullShare (cellBlock x h cs w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rows_cover _)
  iexists _; isplitr
  swap; · iexact H6
  ipureintro
  exact View.read_writes_eq_canon _ _ _ (rows_cover _)

/-! ## The launch's proof data -/

/-- On core `c`: the arrays as the launch finds them; after the body at point `t` each input's buffer at its block and
    each result's at its block of the new state; the invariant the scoped rest and the generator register, untouched;
    nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: each input's buffer holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the launch at what
    the library computes from the proof data and every other unscoped buffer as the launch found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_launch m Variants.none) (hA := A_eq m) (hΦ := fun _ _ => rfl)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Cell

end
-- ==== Proof.CellSpec.lean ====
/-
  The LSTM cell as a function of its arrays, one entry at a time, over the extended reals.

  Row `r` of the joined input `[x | h]` has 512 columns: the first 256 are `x`'s, the last 256 are `h`'s. The
  pre-activation of gate column `n` (of 1024: input, forget, output and candidate gates, 256 columns each) in row `r` is
  the inner product of that joined row with column `n` of the [512, 1024] weight matrix, plus bias `n`. The new cell
  state at (r, j) is  σ(forget) · c + σ(input) · tanh(candidate)  and the new hidden state is
  tanh(new cell) · σ(output), with the four gates read at columns j, 256 + j, 512 + j and 768 + j.
  Nothing here needs an algebraic law: the kernel and the reference both compute exactly these expressions, in this
  order; they differ only in how the arrays are cut into blocks and laid out.
-/
import Idealize.ShloMosaic.PureOps.Ideal
import Idealize.ShloMosaic.Lib.ValueIdx
import Idealize.ShloMosaic.Lib.Pipeline.Value

noncomputable section

open scoped BigOperators

namespace Cert.CellSpec

open Idealize.ShloMosaic Idealize.ShloMosaic.ValueIdx

/-- An [a, b] array of extended reals. -/
abbrev Mat (a b : Nat) : Type := (⟨2, ![a, b]⟩ : Shape).Idx → EReal

/-- Entry `k` of row `r` of the joined input `[x | h]`. -/
def joined {N : Nat} (x h : Mat N 256) (r : Fin N) (k : Fin 512) : EReal :=
  if hk : k.val < 256 then x (ix2 r ⟨k.val, hk⟩) else h (ix2 r ⟨k.val - 256, by have := k.isLt; omega⟩)

/-- The pre-activation of gate column `n` in row `r`: the joined row against column `n` of the weights, plus the bias. -/
def gate {N : Nat} (x h : Mat N 256) (wt : Mat 512 1024) (bs : Fin 1024 → EReal) (r : Fin N) (n : Fin 1024) : EReal :=
  (∑ k : Fin 512, joined x h r k * wt (ix2 k n)) + bs n

/-- Column `o + j` of the 1024 gate columns. -/
def col (o : Nat) (ho : o + 256 ≤ 1024) (j : Fin 256) : Fin 1024 := ⟨o + j.val, by have := j.isLt; omega⟩

/-- The new cell state from the input, forget and candidate pre-activations and the old cell state. -/
def newCell (gi gf gg c : EReal) : EReal := Ideal.logistic gf * c + Ideal.logistic gi * Ideal.tanh gg

/-- The new hidden state. -/
def newHidden (gi gf go gg c : EReal) : EReal := Ideal.tanh (newCell gi gf gg c) * Ideal.logistic go

/-- The new cell state at row `r`, column `j`. -/
def cellAt {N : Nat} (x h cs : Mat N 256) (wt : Mat 512 1024) (bs : Fin 1024 → EReal) (r : Fin N) (j : Fin 256) : EReal :=
  newCell (gate x h wt bs r (col 0 (by decide) j)) (gate x h wt bs r (col 256 (by decide) j))
    (gate x h wt bs r (col 768 (by decide) j)) (cs (ix2 r j))

/-- The new hidden state at row `r`, column `j`. -/
def hiddenAt {N : Nat} (x h cs : Mat N 256) (wt : Mat 512 1024) (bs : Fin 1024 → EReal) (r : Fin N) (j : Fin 256) : EReal :=
  newHidden (gate x h wt bs r (col 0 (by decide) j)) (gate x h wt bs r (col 256 (by decide) j))
    (gate x h wt bs r (col 512 (by decide) j)) (gate x h wt bs r (col 768 (by decide) j)) (cs (ix2 r j))

/-- The whole new cell state and the whole new hidden state, as arrays. -/
def cellArr {N : Nat} (x h cs : Mat N 256) (wt : Mat 512 1024) (bs : Fin 1024 → EReal) : Mat N 256 :=
  fun i => cellAt x h cs wt bs (i 0) (i 1)
def hiddenArr {N : Nat} (x h cs : Mat N 256) (wt : Mat 512 1024) (bs : Fin 1024 → EReal) : Mat N 256 :=
  fun i => hiddenAt x h cs wt bs (i 0) (i 1)

/-- Joining two [N, 256] arrays along the columns and reading row `r`, column `k` is `joined`: below 256 the first
    array's entry, from 256 on the second's, 256 columns to the left. -/
theorem concat_cols {N : Nat} (x h : Mat N 256)
    (hc : Shape.Concatenates [(⟨2, ![N, 256]⟩ : Shape), ⟨2, ![N, 256]⟩] ⟨2, ![N, 512]⟩ 1) (r : Fin N) (k : Fin 512) :
    concatenate (⟨2, ![N, 512]⟩ : Shape) 1 [⟨⟨2, ![N, 256]⟩, x⟩, ⟨⟨2, ![N, 256]⟩, h⟩] hc (ix2 r k) = joined x h r k := by
  unfold joined
  split
  · next hk =>
    exact concatenate_pair_apply_left 1 x h hc (ix2 r k) rfl (ix2 r ⟨k.val, hk⟩)
      (fun b => match b with | ⟨0, _⟩ => rfl | ⟨1, _⟩ => rfl)
  · next hk =>
    exact concatenate_pair_apply_right 1 x h hc (ix2 r k) rfl rfl (ix2 r ⟨k.val - 256, by have := k.isLt; omega⟩)
      (fun b hb => match b, hb with | ⟨0, _⟩, _ => rfl | ⟨1, _⟩, hb => absurd rfl hb)
      (by show (k.val - 256) + 256 = k.val; omega)

/-- The word 0x3F800000 is the number one. -/
theorem one_word : Ideal.ofBits .f32 0x3F800000#32 = 1 := by
  simp [Ideal.ofBits, Ideal.ieee, -EReal.coe_mul]; norm_num

/-- The logistic function is the quotient the reference spells out: one over one plus e to the minus x. -/
theorem logistic_spelt (g : EReal) : Ideal.div 1 (1 + Ideal.exp (-g)) = Ideal.logistic g := rfl

end Cert.CellSpec

end
-- ==== Proof.CellPayload.lean ====
/-
  What the kernel body computes, one entry at a time.

  Over a block of 1024 rows the body joins the row blocks of `x` and `h` along the columns, multiplies by the whole
  [512, 1024] weight matrix into a zero accumulator and adds the bias row to every row: entry (p, n) of that
  [1024, 1024] block is `CellSpec.gate` of the two row blocks at block row `p` and gate column `n` (narrowing to the
  16-bit format changes nothing over the extended reals, and the accumulated product is the plain sum over the 512 joined
  columns). Its four column slices are the four gates; the value stored to the cell result is `CellSpec.cellAt` and the
  value stored to the hidden result is `CellSpec.hiddenAt`, both over the blocks.
-/
import proofs.«133122_j28913719836975_1_alg».proof.Proof.Gen.KernelIdeal.Skeleton
import proofs.«133122_j28913719836975_1_alg».proof.Proof.CellSpec
import Idealize.ShloMosaic.PureOps.Ideal.Laws
import Idealize.ShloMosaic.Lib.ValueIdx
import Idealize.ShloMosaic.Lib.Pipeline.Value

noncomputable section

open scoped BigOperators

namespace Cert.KernelIdeal.CellPayload

open Cert.KernelIdeal Cert.KernelIdeal.Gen Cert.CellSpec
open Idealize.ShloMosaic Idealize.ShloMosaic.ValueIdx

/-! ## The matrix product at an entry -/

theorem lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_inner (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_inner (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into a zero accumulator, at (p, n): the sum over the 512 inner columns. -/
theorem product_at (l : FVec Ideal S1024x512 .bf16) (rr : FVec Ideal S512x1024 .bf16) (p n : Fin 1024) :
    matmul dot_S1024x512_S512x1024_S1024x1024_1_0_0_1_n_n none l rr (constant (F := Ideal) S1024x1024 .f32 0x00000000#32) (ix2 p n)
      = ∑ k : Fin 512, l (ix2 p k) * rr (ix2 k n) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p n) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (lhs_inner _ _).trans hk)
  have er : dot_S1024x512_S512x1024_S1024x1024_1_0_0_1_n_n.rhsIdx (ix2 p n) ((contrEquiv1 dot_S1024x512_S512x1024_S1024x1024_1_0_0_1_n_n 512 rfl rfl).symm k) = ix2 k n := funext fun a => Fin.ext (by
    match a with
    | ⟨0, _⟩ => exact (rhs_inner _ _).trans hk
    | ⟨1, _⟩ => exact rhs_col _ _)
  rw [el, er]

/-! ## The gates -/

variable (xb hb cb : Vec Ideal S1024x256 .f32) (w : Vec Ideal S512x1024 .bf16) (b : Vec Ideal S1x1024 .f32)

/-- The bias row as a vector over the 1024 gate columns. -/
abbrev biasRow : Fin 1024 → EReal := fun n => b (ix2 (0 : Fin 1) n)

/-- Entry (p, n) of the block of pre-activations. -/
theorem gates_at (p n : Fin 1024) :
    k0_pay1 (F := Ideal) xb hb w b (ix2 p n) = gate xb hb w (biasRow b) p n := by
  unfold k0_pay1 gate
  show (matmul dot_S1024x512_S512x1024_S1024x1024_1_0_0_1_n_n none _ _ (constant (F := Ideal) S1024x1024 .f32 0x00000000#32) : FVec Ideal S1024x1024 .f32) (ix2 p n)
      + (broadcastTo S1024x1024 _ broadcasts_S1x1024_S1024x1024 : FVec Ideal S1024x1024 .f32) (ix2 p n) = (∑ k : Fin 512, _) + _
  rw [product_at]
  refine congrArg₂ (· + ·) (Finset.sum_congr rfl fun k _ => ?_) ?_
  · rw [concat_cols, shapeCast_self]; rfl
  · rw [shapeCast_self]
    exact broadcastTo_apply b broadcasts_S1x1024_S1024x1024 (ix2 p n) (ix2 (0 : Fin 1) n) (fun a => match a with
      | ⟨0, _⟩ => by show (0 : Nat) = if (1 : Nat) = 1 then 0 else _; rw [if_pos rfl]
      | ⟨1, _⟩ => by show n.val = if (1024 : Nat) = 1 then 0 else n.val; rw [if_neg (by decide)])

/-- A column slice of the pre-activations starting at column `o`, at (p, j): gate column `o + j`. -/
theorem slice_at (g : FVec Ideal S1024x1024 .f32) (o : Nat) (ho : o + 256 ≤ 1024) (hs : S1024x1024.Slices ![0, o] S1024x256)
    (p : Fin 1024) (j : Fin 256) :
    extractStridedSlice S1024x256 ![0, o] g hs (ix2 p j) = g (ix2 p (col o ho j)) :=
  extractStridedSlice_apply ![0, o] g hs (ix2 p j) (ix2 p (col o ho j)) (fun a => match a with
    | ⟨0, _⟩ => by show p.val = 0 + p.val; omega
    | ⟨1, _⟩ => by show o + j.val = o + j.val; rfl)

/-- What the body stores to the cell result, at (p, j). -/
theorem cell_at (p : Fin 1024) (j : Fin 256) :
    k0_pay2 (F := Ideal) xb hb w b cb (ix2 p j) = cellAt xb hb cb w (biasRow b) p j := by
  have e : k0_pay2 (F := Ideal) xb hb w b cb (ix2 p j)
      = Ideal.logistic (extractStridedSlice S1024x256 ![0, 256] (k0_pay1 (F := Ideal) xb hb w b) slices_S1024x1024_o0_256_S1024x256 (ix2 p j)) * cb (ix2 p j)
        + Ideal.logistic (extractStridedSlice S1024x256 ![0, 0] (k0_pay1 (F := Ideal) xb hb w b) slices_S1024x1024_o0_0_S1024x256 (ix2 p j))
          * Ideal.tanh (extractStridedSlice S1024x256 ![0, 768] (k0_pay1 (F := Ideal) xb hb w b) slices_S1024x1024_o0_768_S1024x256 (ix2 p j)) := rfl
  rw [e, slice_at _ 256 (by decide), slice_at _ 0 (by decide), slice_at _ 768 (by decide), gates_at, gates_at, gates_at]
  rfl

/-- What the body stores to the hidden result, at (p, j). -/
theorem hidden_at (p : Fin 1024) (j : Fin 256) :
    k0_pay3 (F := Ideal) xb hb w b cb (ix2 p j) = hiddenAt xb hb cb w (biasRow b) p j := by
  have e : k0_pay3 (F := Ideal) xb hb w b cb (ix2 p j)
      = Ideal.tanh (k0_pay2 (F := Ideal) xb hb w b cb (ix2 p j))
        * Ideal.logistic (extractStridedSlice S1024x256 ![0, 512] (k0_pay1 (F := Ideal) xb hb w b) slices_S1024x1024_o0_512_S1024x256 (ix2 p j)) := rfl
  rw [e, cell_at, slice_at _ 512 (by decide), gates_at]
  rfl

end Cert.KernelIdeal.CellPayload

end
-- ==== Proof.CellRows.lean ====
/-
  The cell reads one row of each array: if two triples of arrays agree along a row (row `r` of the first with row `r'`
  of the second), the gates, the new cell state and the new hidden state at those rows agree. This is how a row block's
  cell becomes the whole array's cell 1024·t rows further down.
-/
import proofs.«133122_j28913719836975_1_alg».proof.Proof.CellSpec

noncomputable section

open scoped BigOperators

namespace Cert.CellSpec

open Idealize.ShloMosaic Idealize.ShloMosaic.ValueIdx

theorem gate_row {N N' : Nat} (x h : Mat N 256) (x' h' : Mat N' 256) (wt : Mat 512 1024) (bs : Fin 1024 → EReal)
    (r : Fin N) (r' : Fin N') (hx : ∀ j : Fin 256, x (ix2 r j) = x' (ix2 r' j)) (hh : ∀ j : Fin 256, h (ix2 r j) = h' (ix2 r' j))
    (n : Fin 1024) : gate x h wt bs r n = gate x' h' wt bs r' n := by
  unfold gate joined
  refine congrArg (· + bs n) (Finset.sum_congr rfl fun k _ => ?_)
  by_cases hk : k.val < 256
  · rw [dif_pos hk, dif_pos hk, hx]
  · rw [dif_neg hk, dif_neg hk, hh]

theorem cellAt_row {N N' : Nat} (x h cs : Mat N 256) (x' h' cs' : Mat N' 256) (wt : Mat 512 1024) (bs : Fin 1024 → EReal)
    (r : Fin N) (r' : Fin N') (hx : ∀ j : Fin 256, x (ix2 r j) = x' (ix2 r' j)) (hh : ∀ j : Fin 256, h (ix2 r j) = h' (ix2 r' j))
    (j : Fin 256) (hc : cs (ix2 r j) = cs' (ix2 r' j)) : cellAt x h cs wt bs r j = cellAt x' h' cs' wt bs r' j := by
  unfold cellAt
  rw [gate_row x h x' h' wt bs r r' hx hh (col 0 (by decide) j), gate_row x h x' h' wt bs r r' hx hh (col 256 (by decide) j),
    gate_row x h x' h' wt bs r r' hx hh (col 768 (by decide) j), hc]

theorem hiddenAt_row {N N' : Nat} (x h cs : Mat N 256) (x' h' cs' : Mat N' 256) (wt : Mat 512 1024) (bs : Fin 1024 → EReal)
    (r : Fin N) (r' : Fin N') (hx : ∀ j : Fin 256, x (ix2 r j) = x' (ix2 r' j)) (hh : ∀ j : Fin 256, h (ix2 r j) = h' (ix2 r' j))
    (j : Fin 256) (hc : cs (ix2 r j) = cs' (ix2 r' j)) : hiddenAt x h cs wt bs r j = hiddenAt x' h' cs' wt bs r' j := by
  unfold hiddenAt
  rw [gate_row x h x' h' wt bs r r' hx hh (col 0 (by decide) j), gate_row x h x' h' wt bs r r' hx hh (col 256 (by decide) j),
    gate_row x h x' h' wt bs r r' hx hh (col 512 (by decide) j), gate_row x h x' h' wt bs r r' hx hh (col 768 (by decide) j), hc]

end Cert.CellSpec

end
-- ==== Proof.CellValue.lean ====
/-
  The kernel program's two results, as whole arrays.

  At grid point `t` the launch stages rows 1024·t … 1024·t + 1023 of `x`, `h` and `c`, the whole weight matrix and the
  whole bias row, and writes back rows 1024·t … 1024·t + 1023 of each result. What it writes back to the hidden result is
  the third payload of those blocks, which entry by entry is `CellSpec.hiddenAt` over the blocks, which is
  `CellSpec.hiddenAt` over the whole arrays 1024·t rows further down: block `t` of the whole-array function
  `CellSpec.hiddenArr`. The 128 blocks tile the 131072 rows (row `r` lies in block `r / 1024`), so after the run the
  hidden result IS `hiddenArr` and, the same way, the cell result IS `cellArr`, of `x`, `h`, `c` as the program was
  started with and of the weight matrix and bias row as the launch finds them.
-/
import proofs.«133122_j28913719836975_1_alg».proof.Proof.CellFrameIdeal
import proofs.«133122_j28913719836975_1_alg».proof.Proof.CellPayload
import proofs.«133122_j28913719836975_1_alg».proof.Proof.CellRows
import Idealize.ShloMosaic.Lib.Pipeline.Value

set_option maxRecDepth 16384

noncomputable section

namespace Cert.KernelIdeal.CellValue

open Cert.KernelIdeal Cert.KernelIdeal.Gen Cert.KernelIdeal.Cell Cert.KernelIdeal.CellPayload Cert.CellSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the cell is a function of -/

abbrev xArr (c : Dev nD) : Mat 131072 256 := m ((c : Thread nD τ).loc main_arg0)
abbrev hArr (c : Dev nD) : Mat 131072 256 := m ((c : Thread nD τ).loc main_arg1)
abbrev cArr (c : Dev nD) : Mat 131072 256 := m ((c : Thread nD τ).loc main_arg2)
/-- The weight matrix and the bias row as the launch finds them. -/
abbrev wArr (c : Dev nD) : Mat 512 1024 := atEntry m c main_v2
abbrev bRow (c : Dev nD) : Mat 1 1024 := atEntry m c main_v4
abbrev bVec (c : Dev nD) : Fin 1024 → EReal := fun n => bRow m c (ix2 (0 : Fin 1) n)

/-- What the two results end holding. -/
abbrev hiddenResult (c : Dev nD) : Mat 131072 256 := hiddenArr (xArr m c) (hArr m c) (cArr m c) (wArr m c) (bVec m c)
abbrev cellResult (c : Dev nD) : Mat 131072 256 := cellArr (xArr m c) (hArr m c) (cArr m c) (wArr m c) (bVec m c)

/-! ## The index maps, and the blocks staged at a point -/

/-- The row windows move one block down per grid point; the weights and the bias row stay. -/
theorem idx_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 128 := Nat.lt_of_lt_of_eq t.isLt N_0

/-- Row `p` of block `t` is row 1024·t + p of the array. -/
def rowOf (t : Fin cfg0.N) (p : Fin 1024) : Fin 131072 :=
  ⟨1024 * t.val + p.val, by have := point_lt t; have := p.isLt; omega⟩

theorem block_x (c : Dev nD) (t : Fin cfg0.N) (p : Fin 1024) (j : Fin 256) :
    (blockAt m c 0 t : Vec Ideal S1024x256 .f32) (ix2 p j) = xArr m c (ix2 (rowOf t p) j) := by
  obtain ⟨e0, e1, -⟩ := idx_maps t
  unfold blockAt
  rw [View.read_apply]
  refine (congrFun (atEntry_arg0 m c) _).trans (congrArg (xArr m c) (funext fun a => Fin.ext ?_))
  match a with
  | ⟨0, _⟩ => show win0_0.index t (0 : Fin 2) * 1024 + 1 * p.val = 1024 * t.val + p.val; rw [e0]; omega
  | ⟨1, _⟩ => show win0_0.index t (1 : Fin 2) * 256 + 1 * j.val = j.val; rw [e1]; omega

theorem block_h (c : Dev nD) (t : Fin cfg0.N) (p : Fin 1024) (j : Fin 256) :
    (blockAt m c 1 t : Vec Ideal S1024x256 .f32) (ix2 p j) = hArr m c (ix2 (rowOf t p) j) := by
  obtain ⟨-, -, e0, e1, -⟩ := idx_maps t
  unfold blockAt
  rw [View.read_apply]
  refine (congrFun (atEntry_arg1 m c) _).trans (congrArg (hArr m c) (funext fun a => Fin.ext ?_))
  match a with
  | ⟨0, _⟩ => show win0_1.index t (0 : Fin 2) * 1024 + 1 * p.val = 1024 * t.val + p.val; rw [e0]; omega
  | ⟨1, _⟩ => show win0_1.index t (1 : Fin 2) * 256 + 1 * j.val = j.val; rw [e1]; omega

theorem block_c (c : Dev nD) (t : Fin cfg0.N) (p : Fin 1024) (j : Fin 256) :
    (blockAt m c 2 t : Vec Ideal S1024x256 .f32) (ix2 p j) = cArr m c (ix2 (rowOf t p) j) := by
  obtain ⟨-, -, -, -, e0, e1, -⟩ := idx_maps t
  unfold blockAt
  rw [View.read_apply]
  refine (congrFun (atEntry_arg2 m c) _).trans (congrArg (cArr m c) (funext fun a => Fin.ext ?_))
  match a with
  | ⟨0, _⟩ => show win0_2.index t (0 : Fin 2) * 1024 + 1 * p.val = 1024 * t.val + p.val; rw [e0]; omega
  | ⟨1, _⟩ => show win0_2.index t (1 : Fin 2) * 256 + 1 * j.val = j.val; rw [e1]; omega

/-- The weights' block at any point is the whole matrix, -/
theorem block_w (c : Dev nD) (t : Fin cfg0.N) : (blockAt m c 3 t : Vec Ideal S512x1024 .bf16) = wArr m c := by
  obtain ⟨-, -, -, -, -, -, -, -, -, -, e0, e1, -⟩ := idx_maps t
  funext y
  unfold blockAt
  rw [View.read_apply]
  refine congrArg (wArr m c) (funext fun a => Fin.ext ?_)
  match a with
  | ⟨0, _⟩ => show win0_3.index t (0 : Fin 2) * 512 + 1 * (y 0).val = (y 0).val; rw [e0]; omega
  | ⟨1, _⟩ => show win0_3.index t (1 : Fin 2) * 1024 + 1 * (y 1).val = (y 1).val; rw [e1]; omega

/-- and the bias row's the whole row. -/
theorem block_b (c : Dev nD) (t : Fin cfg0.N) : (blockAt m c 4 t : Vec Ideal S1x1024 .f32) = bRow m c := by
  obtain ⟨-, -, -, -, -, -, -, -, -, -, -, -, e0, e1⟩ := idx_maps t
  funext y
  unfold blockAt
  rw [View.read_apply]
  refine congrArg (bRow m c) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-! ## What a point writes back -/

/-- Entry (p, j) of a result's block `t` is entry (1024·t + p, j) of the result. -/
theorem emb_hidden (t : Fin cfg0.N) (p : Fin 1024) (j : Fin 256) :
    ((cfg0.win 5).blk t).view.emb (ix2 p j) = (ix2 (rowOf t p) j : S131072x256.Idx) := by
  obtain ⟨-, -, -, -, -, -, e0, e1, -⟩ := idx_maps t
  funext a; apply Fin.ext
  match a with
  | ⟨0, _⟩ => show win0_5.index t (0 : Fin 2) * 1024 + 1 * p.val = 1024 * t.val + p.val; rw [e0]; omega
  | ⟨1, _⟩ => show win0_5.index t (1 : Fin 2) * 256 + 1 * j.val = j.val; rw [e1]; omega
theorem emb_cell (t : Fin cfg0.N) (p : Fin 1024) (j : Fin 256) :
    ((cfg0.win 6).blk t).view.emb (ix2 p j) = (ix2 (rowOf t p) j : S131072x256.Idx) := by
  obtain ⟨-, -, -, -, -, -, -, -, e0, e1, -⟩ := idx_maps t
  funext a; apply Fin.ext
  match a with
  | ⟨0, _⟩ => show win0_6.index t (0 : Fin 2) * 1024 + 1 * p.val = 1024 * t.val + p.val; rw [e0]; omega
  | ⟨1, _⟩ => show win0_6.index t (1 : Fin 2) * 256 + 1 * j.val = j.val; rw [e1]; omega

/-- Point `t` writes block `t` of `hiddenResult` back to the hidden result, -/
theorem flushed_hidden (c : Dev nD) (t : Fin cfg0.N) :
    (dats m 0 c).flushed 5 t = ((cfg0.win 5).blk t).view.read (Elt Ideal) (hiddenResult m c) := by
  show (cfg0.win 5).cut (grid0.coords t) ((dats m 0 c).after 5 t) = _
  rw [after5]
  unfold hiddenBlock
  rw [View.canon_unit_zero hz]
  simp only [View.ld_unit_zero (S := S1024x256) hz, View.ld_unit_zero (S := S512x1024) hz, View.ld_unit_zero (S := S1x1024) hz]
  funext y
  obtain ⟨p, j, rfl⟩ : ∃ (p : Fin 1024) (j : Fin 256), y = ix2 p j := ⟨y 0, y 1, eq_ix2 y⟩
  rw [View.read_apply, emb_hidden]
  refine (hidden_at (blockAt m c 0 t) (blockAt m c 1 t) (blockAt m c 2 t) (blockAt m c 3 t) (blockAt m c 4 t) p j).trans ?_
  rw [block_w, block_b]
  exact hiddenAt_row (blockAt m c 0 t) (blockAt m c 1 t) (blockAt m c 2 t) (xArr m c) (hArr m c) (cArr m c) (wArr m c) (bVec m c)
    p (rowOf t p) (fun j => block_x m c t p j) (fun j => block_h m c t p j) j (block_c m c t p j)

/-- and block `t` of `cellResult` to the cell result. -/
theorem flushed_cell (c : Dev nD) (t : Fin cfg0.N) :
    (dats m 0 c).flushed 6 t = ((cfg0.win 6).blk t).view.read (Elt Ideal) (cellResult m c) := by
  show (cfg0.win 6).cut (grid0.coords t) ((dats m 0 c).after 6 t) = _
  rw [after6]
  unfold cellBlock
  rw [View.canon_unit_zero hz]
  simp only [View.ld_unit_zero (S := S1024x256) hz, View.ld_unit_zero (S := S512x1024) hz, View.ld_unit_zero (S := S1x1024) hz]
  funext y
  obtain ⟨p, j, rfl⟩ : ∃ (p : Fin 1024) (j : Fin 256), y = ix2 p j := ⟨y 0, y 1, eq_ix2 y⟩
  rw [View.read_apply, emb_cell]
  refine (cell_at (blockAt m c 0 t) (blockAt m c 1 t) (blockAt m c 2 t) (blockAt m c 3 t) (blockAt m c 4 t) p j).trans ?_
  rw [block_w, block_b]
  exact cellAt_row (blockAt m c 0 t) (blockAt m c 1 t) (blockAt m c 2 t) (xArr m c) (hArr m c) (cArr m c) (wArr m c) (bVec m c)
    p (rowOf t p) (fun j => block_x m c t p j) (fun j => block_h m c t p j) j (block_c m c t p j)

/-! ## The blocks tile the rows -/

theorem mem_block_hidden (t : Fin cfg0.N) (i : S131072x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v5_0).slice (win0_5.rect t)).set ↔ _
  rw [View.set_slice_whole, Rect.mem_set_unit]
  exact Iff.rfl
theorem mem_block_cell (t : Fin cfg0.N) (i : S131072x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v5_1).slice (win0_6.rect t)).set ↔ _
  rw [View.set_slice_whole, Rect.mem_set_unit]
  exact Iff.rfl

/-- The point whose block holds row `r`. -/
def pointOf (i : S131072x256.Idx) : Fin cfg0.N :=
  ⟨(i 0).val / 1024, by rw [show cfg0.N = 128 from N_0]; have : (i 0).val < 131072 := (i 0).isLt; omega⟩

theorem cover_hidden (i : S131072x256.Idx) : ∃ t : Fin cfg0.N, (cfg0.win 5).flush t = true ∧ i ∈ ((cfg0.win 5).blk t).view.set := by
  refine ⟨pointOf i, flush0_5 _, ?_⟩
  obtain ⟨-, -, -, -, -, -, e0, e1, -⟩ := idx_maps (pointOf i)
  have h0 : (i 0).val < 131072 := (i 0).isLt
  have h1 : (i 1).val < 256 := (i 1).isLt
  have ht : (pointOf i).val = (i 0).val / 1024 := rfl
  rw [mem_block_hidden]
  intro a
  match a with
  | ⟨0, _⟩ => show win0_5.index (pointOf i) (0 : Fin 2) * 1024 ≤ (i 0).val ∧ (i 0).val < win0_5.index (pointOf i) (0 : Fin 2) * 1024 + 1024; rw [e0, ht]; omega
  | ⟨1, _⟩ => show win0_5.index (pointOf i) (1 : Fin 2) * 256 ≤ (i 1).val ∧ (i 1).val < win0_5.index (pointOf i) (1 : Fin 2) * 256 + 256; rw [e1]; omega

theorem cover_cell (i : S131072x256.Idx) : ∃ t : Fin cfg0.N, (cfg0.win 6).flush t = true ∧ i ∈ ((cfg0.win 6).blk t).view.set := by
  refine ⟨pointOf i, flush0_6 _, ?_⟩
  obtain ⟨-, -, -, -, -, -, -, -, e0, e1, -⟩ := idx_maps (pointOf i)
  have h0 : (i 0).val < 131072 := (i 0).isLt
  have h1 : (i 1).val < 256 := (i 1).isLt
  have ht : (pointOf i).val = (i 0).val / 1024 := rfl
  rw [mem_block_cell]
  intro a
  match a with
  | ⟨0, _⟩ => show win0_6.index (pointOf i) (0 : Fin 2) * 1024 ≤ (i 0).val ∧ (i 0).val < win0_6.index (pointOf i) (0 : Fin 2) * 1024 + 1024; rw [e0, ht]; omega
  | ⟨1, _⟩ => show win0_6.index (pointOf i) (1 : Fin 2) * 256 ≤ (i 1).val ∧ (i 1).val < win0_6.index (pointOf i) (1 : Fin 2) * 256 + 256; rw [e1]; omega

/-- So after the run each result holds its whole-array function. -/
theorem final_hidden (c : Dev nD) : (dats m 0 c).arrAt 5 cfg0.N = hiddenResult m c :=
  (dats m 0 c).arrAt_eq_of_cover 5 (hiddenResult m c) (fun t _ => flushed_hidden m c t) cover_hidden
theorem final_cell (c : Dev nD) : (dats m 0 c).arrAt 6 cfg0.N = cellResult m c :=
  (dats m 0 c).arrAt_eq_of_cover 6 (cellResult m c) (fun t _ => flushed_cell m c t) cover_cell

/-! ## The run, read -/

theorem kept0 (r : PUnit × MemSt nD τ sig (Elt Ideal)) (h : Pipeline.FramePost cfgs (dats m) 0 (atEntry m) r) (c : Dev nD) :
    r.2.mem ((c : Thread nD τ).loc main_arg0) = m ((c : Thread nD τ).loc main_arg0) :=
  ((h c).1 0).trans (((dats m 0 c).arrAt_in 0 rfl _).trans ((A_eq m c 0).trans (atEntry_arg0 m c)))
theorem kept1 (r : PUnit × MemSt nD τ sig (Elt Ideal)) (h : Pipeline.FramePost cfgs (dats m) 0 (atEntry m) r) (c : Dev nD) :
    r.2.mem ((c : Thread nD τ).loc main_arg1) = m ((c : Thread nD τ).loc main_arg1) :=
  ((h c).1 1).trans (((dats m 0 c).arrAt_in 1 rfl _).trans ((A_eq m c 1).trans (atEntry_arg1 m c)))
theorem kept2 (r : PUnit × MemSt nD τ sig (Elt Ideal)) (h : Pipeline.FramePost cfgs (dats m) 0 (atEntry m) r) (c : Dev nD) :
    r.2.mem ((c : Thread nD τ).loc main_arg2) = m ((c : Thread nD τ).loc main_arg2) :=
  ((h c).1 2).trans (((dats m 0 c).arrAt_in 2 rfl _).trans ((A_eq m c 2).trans (atEntry_arg2 m c)))
theorem kept3 (r : PUnit × MemSt nD τ sig (Elt Ideal)) (h : Pipeline.FramePost cfgs (dats m) 0 (atEntry m) r) (c : Dev nD) :
    r.2.mem ((c : Thread nD τ).loc main_arg3) = m ((c : Thread nD τ).loc main_arg3) :=
  ((h c).2 main_arg3 (Pipeline.mem_restRefs_of main_arg3 (by decide) (by decide))).trans (atEntry_arg3 m c)
theorem kept4 (r : PUnit × MemSt nD τ sig (Elt Ideal)) (h : Pipeline.FramePost cfgs (dats m) 0 (atEntry m) r) (c : Dev nD) :
    r.2.mem ((c : Thread nD τ).loc main_arg4) = m ((c : Thread nD τ).loc main_arg4) :=
  ((h c).2 main_arg4 (Pipeline.mem_restRefs_of main_arg4 (by decide) (by decide))).trans (atEntry_arg4 m c)
theorem kept5 (r : PUnit × MemSt nD τ sig (Elt Ideal)) (h : Pipeline.FramePost cfgs (dats m) 0 (atEntry m) r) (c : Dev nD) :
    r.2.mem ((c : Thread nD τ).loc main_arg5) = m ((c : Thread nD τ).loc main_arg5) :=
  ((h c).2 main_arg5 (Pipeline.mem_restRefs_of main_arg5 (by decide) (by decide))).trans (atEntry_arg5 m c)
theorem kept6 (r : PUnit × MemSt nD τ sig (Elt Ideal)) (h : Pipeline.FramePost cfgs (dats m) 0 (atEntry m) r) (c : Dev nD) :
    r.2.mem ((c : Thread nD τ).loc main_arg6) = m ((c : Thread nD τ).loc main_arg6) :=
  ((h c).2 main_arg6 (Pipeline.mem_restRefs_of main_arg6 (by decide) (by decide))).trans (atEntry_arg6 m c)
theorem kept7 (r : PUnit × MemSt nD τ sig (Elt Ideal)) (h : Pipeline.FramePost cfgs (dats m) 0 (atEntry m) r) (c : Dev nD) :
    r.2.mem ((c : Thread nD τ).loc main_arg7) = m ((c : Thread nD τ).loc main_arg7) :=
  ((h c).2 main_arg7 (Pipeline.mem_restRefs_of main_arg7 (by decide) (by decide))).trans (atEntry_arg7 m c)
theorem kept8 (r : PUnit × MemSt nD τ sig (Elt Ideal)) (h : Pipeline.FramePost cfgs (dats m) 0 (atEntry m) r) (c : Dev nD) :
    r.2.mem ((c : Thread nD τ).loc main_arg8) = m ((c : Thread nD τ).loc main_arg8) :=
  ((h c).2 main_arg8 (Pipeline.mem_restRefs_of main_arg8 (by decide) (by decide))).trans (atEntry_arg8 m c)
theorem kept9 (r : PUnit × MemSt nD τ sig (Elt Ideal)) (h : Pipeline.FramePost cfgs (dats m) 0 (atEntry m) r) (c : Dev nD) :
    r.2.mem ((c : Thread nD τ).loc main_arg9) = m ((c : Thread nD τ).loc main_arg9) :=
  ((h c).2 main_arg9 (Pipeline.mem_restRefs_of main_arg9 (by decide) (by decide))).trans (atEntry_arg9 m c)
theorem kept10 (r : PUnit × MemSt nD τ sig (Elt Ideal)) (h : Pipeline.FramePost cfgs (dats m) 0 (atEntry m) r) (c : Dev nD) :
    r.2.mem ((c : Thread nD τ).loc main_arg10) = m ((c : Thread nD τ).loc main_arg10) :=
  ((h c).2 main_arg10 (Pipeline.mem_restRefs_of main_arg10 (by decide) (by decide))).trans (atEntry_arg10 m c)
theorem kept11 (r : PUnit × MemSt nD τ sig (Elt Ideal)) (h : Pipeline.FramePost cfgs (dats m) 0 (atEntry m) r) (c : Dev nD) :
    r.2.mem ((c : Thread nD τ).loc main_arg11) = m ((c : Thread nD τ).loc main_arg11) :=
  ((h c).2 main_arg11 (Pipeline.mem_restRefs_of main_arg11 (by decide) (by decide))).trans (atEntry_arg11 m c)
theorem kept12 (r : PUnit × MemSt nD τ sig (Elt Ideal)) (h : Pipeline.FramePost cfgs (dats m) 0 (atEntry m) r) (c : Dev nD) :
    r.2.mem ((c : Thread nD τ).loc main_arg12) = m ((c : Thread nD τ).loc main_arg12) :=
  ((h c).2 main_arg12 (Pipeline.mem_restRefs_of main_arg12 (by decide) (by decide))).trans (atEntry_arg12 m c)

/-- Every weakly fair execution of the kernel program terminates with the hidden result at `hiddenResult`, the cell
    result at `cellResult`, and the thirteen arguments unchanged. -/
theorem run : θ_run defs (onTc (τ := τ) (main (F := Ideal))) ⟨m, fun _ => 0, ρ⟩ fun r => ∀ c : Dev nD,
      r.2.mem ((c : Thread nD τ).loc main_v5_0) = hiddenResult m c
      ∧ r.2.mem ((c : Thread nD τ).loc main_v5_1) = cellResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 5).trans (final_hidden m c), ((h c).1 6).trans (final_cell m c),
      kept0 m r h c, kept1 m r h c, kept2 m r h c, kept3 m r h c, kept4 m r h c, kept5 m r h c, kept6 m r h c, kept7 m r h c, kept8 m r h c, kept9 m r h c, kept10 m r h c, kept11 m r h c, kept12 m r h c⟩)
    (run_main m ρ)

end Cert.KernelIdeal.CellValue

end
-- ==== Proof.CellReference.lean ====
/-
  The reference computes the cell of the specification.

  Read one entry at a time, the reference's gate pre-activations (its matrix product of the joined input with the
  transposed stack of the four weight matrices, plus the broadcast bias) are `CellSpec.gate` at the reference's own weight
  matrix and bias vector. Its four column slices pick gate columns j, 256 + j, 512 + j, 768 + j. It spells each logistic
  function as one over one plus e to the minus x, which is the logistic function by definition, and its constant word is
  the number one. So its two results are `CellSpec.hiddenArr` and `CellSpec.cellArr`.
-/
import proofs.«133122_j28913719836975_1_alg».proof.Proof.Gen.ReferenceIdeal.Read
import proofs.«133122_j28913719836975_1_alg».proof.Proof.CellSpec

noncomputable section

open scoped BigOperators

namespace Cert.ReferenceIdeal.CellRef

open Cert.ReferenceIdeal Cert.ReferenceIdeal.Gen Cert.ReferenceIdeal.Read Cert.CellSpec
open Idealize.ShloMosaic Idealize.ShloMosaic.ValueIdx

variable (x0 x1 x2 : (⟨S131072x256, .f32⟩ : BufTy).Contents (Elt Ideal))
  (x5 : (⟨S256x512, .f32⟩ : BufTy).Contents (Elt Ideal)) (x6 : (⟨S256, .f32⟩ : BufTy).Contents (Elt Ideal))
  (x7 : (⟨S256x512, .f32⟩ : BufTy).Contents (Elt Ideal)) (x8 : (⟨S256, .f32⟩ : BufTy).Contents (Elt Ideal))
  (x9 : (⟨S256x512, .f32⟩ : BufTy).Contents (Elt Ideal)) (x10 : (⟨S256, .f32⟩ : BufTy).Contents (Elt Ideal))
  (x11 : (⟨S256x512, .f32⟩ : BufTy).Contents (Elt Ideal)) (x12 : (⟨S256, .f32⟩ : BufTy).Contents (Elt Ideal))

/-- The reference's weight matrix [512, 1024]: the four gate matrices stacked by rows, transposed. -/
abbrev weights : Mat 512 1024 := val_main_v3 (F := Ideal) x5 x7 x9 x11
/-- The reference's bias vector: the four gate biases end to end. -/
abbrev biases : Fin 1024 → EReal := fun n => val_main_v2 (F := Ideal) x6 x8 x10 x12 (ix1 n)

/-- The reference's pre-activations at (r, n). -/
theorem gate_at (r : Fin 131072) (n : Fin 1024) :
    val_main_v7 (F := Ideal) x0 x1 x5 x6 x7 x8 x9 x10 x11 x12 (ix2 r n) = gate x0 x1 (weights x5 x7 x9 x11) (biases x6 x8 x10 x12) r n := by
  rw [val_main_v7_apply, val_main_v4_apply, val_main_v6_apply, val_main_v5_apply]
  unfold gate
  show (∑ k : Fin 512, _) + _ = (∑ k : Fin 512, _) + _
  refine congrArg₂ (· + ·) (Finset.sum_congr rfl fun k _ => ?_) ?_
  · have el : lidx_main_v4 (ix2 r n) k = ix2 r k := funext fun a => match a with | ⟨0, _⟩ => rfl | ⟨1, _⟩ => rfl
    have er : ridx_main_v4 (ix2 r n) k = ix2 k n := funext fun a => match a with | ⟨0, _⟩ => rfl | ⟨1, _⟩ => rfl
    rw [el, er]
    unfold val_main_v0
    rw [concat_cols]
  · exact congrArg _ (funext fun a => match a with | ⟨0, _⟩ => rfl)

/-- Each of the four slices reads the pre-activations 0, 256, 512 or 768 columns to the right. -/
theorem slice0_at (r : Fin 131072) (j : Fin 256) :
    val_main_v8 (F := Ideal) x0 x1 x5 x6 x7 x8 x9 x10 x11 x12 (ix2 r j) = gate x0 x1 (weights x5 x7 x9 x11) (biases x6 x8 x10 x12) r (col 0 (by decide) j) := by
  rw [val_main_v8_apply, ← gate_at]
  exact congrArg _ (funext fun a => match a with | ⟨0, _⟩ => rfl | ⟨1, _⟩ => Fin.ext (Nat.zero_add _).symm)
theorem slice256_at (r : Fin 131072) (j : Fin 256) :
    val_main_v9 (F := Ideal) x0 x1 x5 x6 x7 x8 x9 x10 x11 x12 (ix2 r j) = gate x0 x1 (weights x5 x7 x9 x11) (biases x6 x8 x10 x12) r (col 256 (by decide) j) := by
  rw [val_main_v9_apply, ← gate_at]
  exact congrArg _ (funext fun a => match a with | ⟨0, _⟩ => rfl | ⟨1, _⟩ => rfl)
theorem slice512_at (r : Fin 131072) (j : Fin 256) :
    val_main_v10 (F := Ideal) x0 x1 x5 x6 x7 x8 x9 x10 x11 x12 (ix2 r j) = gate x0 x1 (weights x5 x7 x9 x11) (biases x6 x8 x10 x12) r (col 512 (by decide) j) := by
  rw [val_main_v10_apply, ← gate_at]
  exact congrArg _ (funext fun a => match a with | ⟨0, _⟩ => rfl | ⟨1, _⟩ => rfl)
theorem slice768_at (r : Fin 131072) (j : Fin 256) :
    val_main_v11 (F := Ideal) x0 x1 x5 x6 x7 x8 x9 x10 x11 x12 (ix2 r j) = gate x0 x1 (weights x5 x7 x9 x11) (biases x6 x8 x10 x12) r (col 768 (by decide) j) := by
  rw [val_main_v11_apply, ← gate_at]
  exact congrArg _ (funext fun a => match a with | ⟨0, _⟩ => rfl | ⟨1, _⟩ => rfl)

/-- The reference's three logistic gates, each spelt as a quotient, are the logistic function of the slices. -/
theorem input_gate_at (i : S131072x256.Idx) :
    val_main_v17 (F := Ideal) x0 x1 x5 x6 x7 x8 x9 x10 x11 x12 i = Ideal.logistic (val_main_v8 (F := Ideal) x0 x1 x5 x6 x7 x8 x9 x10 x11 x12 i) := by
  rw [val_main_v17_apply, val_main_v16_apply, val_main_cst_0_apply, val_main_v15_apply, val_main_v14_apply, val_main_cst_apply,
    val_main_v13_apply, val_main_v12_apply]
  show Ideal.div (Ideal.ofBits .f32 0x3F800000#32) (Ideal.ofBits .f32 0x3F800000#32 + Ideal.exp (-_)) = _
  rw [one_word]; rfl
theorem forget_gate_at (i : S131072x256.Idx) :
    val_main_v23 (F := Ideal) x0 x1 x5 x6 x7 x8 x9 x10 x11 x12 i = Ideal.logistic (val_main_v9 (F := Ideal) x0 x1 x5 x6 x7 x8 x9 x10 x11 x12 i) := by
  rw [val_main_v23_apply, val_main_v22_apply, val_main_cst_2_apply, val_main_v21_apply, val_main_v20_apply, val_main_cst_1_apply,
    val_main_v19_apply, val_main_v18_apply]
  show Ideal.div (Ideal.ofBits .f32 0x3F800000#32) (Ideal.ofBits .f32 0x3F800000#32 + Ideal.exp (-_)) = _
  rw [one_word]; rfl
theorem output_gate_at (i : S131072x256.Idx) :
    val_main_v29 (F := Ideal) x0 x1 x5 x6 x7 x8 x9 x10 x11 x12 i = Ideal.logistic (val_main_v10 (F := Ideal) x0 x1 x5 x6 x7 x8 x9 x10 x11 x12 i) := by
  rw [val_main_v29_apply, val_main_v28_apply, val_main_cst_4_apply, val_main_v27_apply, val_main_v26_apply, val_main_cst_3_apply,
    val_main_v25_apply, val_main_v24_apply]
  show Ideal.div (Ideal.ofBits .f32 0x3F800000#32) (Ideal.ofBits .f32 0x3F800000#32 + Ideal.exp (-_)) = _
  rw [one_word]; rfl

/-- The reference's second result is the new cell state. -/
theorem cell_eq : val_main_v33 (F := Ideal) x0 x1 x2 x5 x6 x7 x8 x9 x10 x11 x12 = cellArr x0 x1 x2 (weights x5 x7 x9 x11) (biases x6 x8 x10 x12) := by
  funext i
  obtain ⟨r, j, rfl⟩ : ∃ (r : Fin 131072) (j : Fin 256), i = ix2 r j := ⟨i 0, i 1, eq_ix2 i⟩
  rw [val_main_v33_apply, val_main_v31_apply, val_main_v32_apply, val_main_v30_apply, forget_gate_at, input_gate_at,
    slice0_at, slice256_at, slice768_at]
  rfl

/-- The reference's first result is the new hidden state. -/
theorem hidden_eq : val_main_v35 (F := Ideal) x0 x1 x2 x5 x6 x7 x8 x9 x10 x11 x12 = hiddenArr x0 x1 x2 (weights x5 x7 x9 x11) (biases x6 x8 x10 x12) := by
  funext i
  obtain ⟨r, j, rfl⟩ : ∃ (r : Fin 131072) (j : Fin 256), i = ix2 r j := ⟨i 0, i 1, eq_ix2 i⟩
  rw [val_main_v35_apply, val_main_v34_apply, output_gate_at, slice512_at, cell_eq]
  rfl

end Cert.ReferenceIdeal.CellRef

end
-- ==== Proof.CellBridge.lean ====
/-
  The weight matrix and the bias row the kernel's launch finds are the reference's.

  Before its launch the kernel program stacks the four gate matrices by rows, transposes the stack and narrows it to the
  16-bit format, which changes nothing over the extended reals: the launch's weight matrix is the reference's transposed
  stack. It lays the four biases end to end and reshapes the 1024 entries into one row: entry (0, n) of that row is entry
  `n` of the reference's bias vector.
-/
import proofs.«133122_j28913719836975_1_alg».proof.Proof.CellValue
import proofs.«133122_j28913719836975_1_alg».proof.Proof.CellReference
import Idealize.ShloMosaic.Lib.StableHlo.Run

noncomputable section

namespace Cert.KernelIdeal.CellBridge

open Cert.KernelIdeal Cert.KernelIdeal.Gen Cert.KernelIdeal.Cell Cert.CellSpec
open Idealize.ShloMosaic Idealize.ShloMosaic.TcCoe Idealize.SL.Sem Idealize.ShloMosaic.ValueIdx Idealize.ShloMosaic.StableHlo

variable (m : (ℓ : Loc nD τ sig) → Buf (Elt Ideal) ℓ)

theorem weights_eq (c : Dev nD) :
    Cert.KernelIdeal.CellValue.wArr m c = Cert.ReferenceIdeal.CellRef.weights (m ((c : Thread Cert.KernelIdeal.nD Cert.KernelIdeal.τ).loc Cert.KernelIdeal.main_arg5)) (m ((c : Thread Cert.KernelIdeal.nD Cert.KernelIdeal.τ).loc Cert.KernelIdeal.main_arg7)) (m ((c : Thread Cert.KernelIdeal.nD Cert.KernelIdeal.τ).loc Cert.KernelIdeal.main_arg9)) (m ((c : Thread Cert.KernelIdeal.nD Cert.KernelIdeal.τ).loc Cert.KernelIdeal.main_arg11)) := by
  show (atEntry m c main_v2 : S512x1024.Idx → EReal) = _
  dsimp only [atEntry, hostOps0]
  after_results
  rfl

theorem bias_row_eq (c : Dev nD) :
    (atEntry m c main_v4 : S1x1024.Idx → EReal)
      = shapeCast S1x1024 (Cert.ReferenceIdeal.Read.val_main_v2 (F := Ideal) (m ((c : Thread Cert.KernelIdeal.nD Cert.KernelIdeal.τ).loc Cert.KernelIdeal.main_arg6)) (m ((c : Thread Cert.KernelIdeal.nD Cert.KernelIdeal.τ).loc Cert.KernelIdeal.main_arg8)) (m ((c : Thread Cert.KernelIdeal.nD Cert.KernelIdeal.τ).loc Cert.KernelIdeal.main_arg10)) (m ((c : Thread Cert.KernelIdeal.nD Cert.KernelIdeal.τ).loc Cert.KernelIdeal.main_arg12))) shapeCasts_S1024_S1x1024 := by
  dsimp only [atEntry, hostOps0]
  after_results
  rfl

theorem biases_eq (c : Dev nD) :
    Cert.KernelIdeal.CellValue.bVec m c = Cert.ReferenceIdeal.CellRef.biases (m ((c : Thread Cert.KernelIdeal.nD Cert.KernelIdeal.τ).loc Cert.KernelIdeal.main_arg6)) (m ((c : Thread Cert.KernelIdeal.nD Cert.KernelIdeal.τ).loc Cert.KernelIdeal.main_arg8)) (m ((c : Thread Cert.KernelIdeal.nD Cert.KernelIdeal.τ).loc Cert.KernelIdeal.main_arg10)) (m ((c : Thread Cert.KernelIdeal.nD Cert.KernelIdeal.τ).loc Cert.KernelIdeal.main_arg12)) := by
  funext n
  show (atEntry m c main_v4 : S1x1024.Idx → EReal) (ix2 (0 : Fin 1) n) = _
  rw [bias_row_eq]
  exact shapeCast_apply _ shapeCasts_S1024_S1x1024 (ix2 (0 : Fin 1) n) (ix1 n)
    (by rw [Shape.rowMajor_val_one, Shape.rowMajor_val_two]; show n.val = 0 * 1024 + n.val; omega)

end Cert.KernelIdeal.CellBridge

end
-- ==== Proof.lean ====
/-
  An LSTM cell over 131072 rows: the kernel against the plain reference, over the extended reals.

  Both programs compute, for every row `r` and column `j` < 256,
      gate(r, n)   = Σ_{k < 512} [x | h](r, k) · W(k, n) + b(n)          (n < 1024),
      c'(r, j)     = σ(gate(r, 256 + j)) · c(r, j) + σ(gate(r, j)) · tanh(gate(r, 768 + j)),
      h'(r, j)     = tanh(c'(r, j)) · σ(gate(r, 512 + j)),
  where `W` is the transposed stack of the four gate matrices and `b` the four biases end to end, and they return
  (h', c'). The kernel walks 128 blocks of 1024 rows, multiplies in the 16-bit format with a 32-bit accumulator and
  uses the logistic function as one operation; the reference multiplies the whole arrays at once and spells the logistic
  function as 1 / (1 + e^(-x)). Over the extended reals a change of float format is the identity, the accumulated block
  product is the same sum over the 512 joined columns, and the spelt-out quotient is the logistic function by
  definition, so the two sides are the same expression entry by entry and no algebraic law (hence no finiteness) is used.

  `CellSpec` states the cell; `CellReference` shows the reference computes it (over its generated run, read one
  operation at a time); `CellPayload` shows the kernel body's stored values are it, over a row block; `CellFrameIdeal`
  and `CellFrameBits` prove that the kernel program runs to the end and leaves its arguments alone; `CellValue` reads the
  two result arrays off that run, block by block; `CellBridge` identifies the weight matrix and the bias row the launch
  finds with the reference's. Here the five claims are put together. The ideal pass rewrote nothing, so the kernel's
  idealization is its own text and `preserves` has nothing to state.
-/
import proofs.«133122_j28913719836975_1_alg».proof.Defs
import proofs.«133122_j28913719836975_1_alg».proof.Proof.Gen.Kernel
import proofs.«133122_j28913719836975_1_alg».proof.Proof.Gen.KernelIdeal
import proofs.«133122_j28913719836975_1_alg».proof.Proof.Gen.ReferenceIdeal
import proofs.«133122_j28913719836975_1_alg».proof.Proof.Gen.Pre_finite_inputs
import proofs.«133122_j28913719836975_1_alg».proof.Proof.Gen.ReferenceIdeal.Run
import proofs.«133122_j28913719836975_1_alg».proof.Proof.Gen.ReferenceIdeal.Read
import proofs.«133122_j28913719836975_1_alg».proof.Proof.CellFrameBits
import proofs.«133122_j28913719836975_1_alg».proof.Proof.CellFrameIdeal
import proofs.«133122_j28913719836975_1_alg».proof.Proof.CellValue
import proofs.«133122_j28913719836975_1_alg».proof.Proof.CellReference
import proofs.«133122_j28913719836975_1_alg».proof.Proof.CellBridge

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Cell.frame m ρ

/-- So does the kernel program read over the extended reals. -/
theorem frame_kernel_ideal : Cert.frame_KernelIdeal := fun m ρ _ => Cert.KernelIdeal.Cell.frame m ρ

/-- The reference runs and leaves its arguments unchanged: its generated run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the hidden result at `hiddenArr` and the cell
    result at `cellArr` of `x`, `h`, `c`, the transposed weight stack and the bias vector. -/
theorem algebraic : Cert.algebraic_KernelIdeal_ReferenceIdeal := by
  intro m ρ m' ρ' _ hagree
  refine ⟨fun c => Cert.KernelIdeal.CellValue.hiddenResult m c, fun c => Cert.KernelIdeal.CellValue.cellResult m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, -, -, a5, a6, a7, a8, a9, a10, a11, a12⟩ := hagree c
    rw [Cert.ReferenceIdeal.Read.val_main_v35_eq, Cert.ReferenceIdeal.CellRef.hidden_eq, a0, a1, a2, a5, a6, a7, a8, a9, a10, a11, a12,
      ← Cert.KernelIdeal.CellBridge.weights_eq, ← Cert.KernelIdeal.CellBridge.biases_eq]
  · obtain ⟨a0, a1, a2, -, -, a5, a6, a7, a8, a9, a10, a11, a12⟩ := hagree c
    refine (Cert.ReferenceIdeal.Read.val_main_v33_eq _ _ _ _ _ _ _ _ _ _ _).trans ?_
    rw [Cert.ReferenceIdeal.CellRef.cell_eq, a0, a1, a2, a5, a6, a7, a8, a9, a10, a11, a12,
      ← Cert.KernelIdeal.CellBridge.weights_eq, ← Cert.KernelIdeal.CellBridge.biases_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
